-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S2049x512 : S_.BroadcastsInDim S2049x512 (![] : Fin 0 → Fin S2049x512.rank)
  reducesTo_S2049x512_S_d0_1 : S2049x512.ReducesTo [0, 1] S_
  bcast_S_S2049 : S_.BroadcastsInDim S2049 (![] : Fin 0 → Fin S2049.rank)
  reducesTo_S2049_S_d0 : S2049.ReducesTo [0] S_

variable [Facts]

def fn_part2 {F : FTy → Type} [FloatOps F] (main_arg7 : FVec F S2049x512 .f32) (main_arg8 : FVec F S2049x512 .f32) (main_arg9 : FVec F S2049 .f32) (main_v33 : IVec S_ 1) : IVec S_ 1 :=
  let main_v34 : FVec F S2049x512 .f32 := Host.absf main_arg7
  let main_cst_12 : FVec F S_ .f32 := constant S_ .f32 0x7F800000#32
  let main_v35 : FVec F S2049x512 .f32 := broadcastInDim S2049x512 ![] bcast_S_S2049x512 main_cst_12
  let main_v36 : IVec S2049x512 1 := cmpf .olt main_v34 main_v35
  let main_c_13 : IVec S_ 1 := constantI S_ 1 1#1
  let main_v37 : IVec S_ 1 := (fun x v => Host.reduce IntOp.andi x v reducesTo_S2049x512_S_d0_1 h_S_) main_v36 main_c_13
  let main_v38 : IVec S_ 1 := andi main_v33 main_v37
  let main_v39 : FVec F S2049x512 .f32 := Host.absf main_arg8
  let main_cst_14 : FVec F S_ .f32 := constant S_ .f32 0x7F800000#32
  let main_v40 : FVec F S2049x512 .f32 := broadcastInDim S2049x512 ![] bcast_S_S2049x512 main_cst_14
  let main_v41 : IVec S2049x512 1 := cmpf .olt main_v39 main_v40
  let main_c_15 : IVec S_ 1 := constantI S_ 1 1#1
  let main_v42 : IVec S_ 1 := (fun x v => Host.reduce IntOp.andi x v reducesTo_S2049x512_S_d0_1 h_S_) main_v41 main_c_15
  let main_v43 : IVec S_ 1 := andi main_v38 main_v42
  let main_v44 : FVec F S2049 .f32 := Host.absf main_arg9
  let main_cst_16 : FVec F S_ .f32 := constant S_ .f32 0x7F800000#32
  let main_v45 : FVec F S2049 .f32 := broadcastInDim S2049 ![] bcast_S_S2049 main_cst_16
  let main_v46 : IVec S2049 1 := cmpf .olt main_v44 main_v45
  let main_c_17 : IVec S_ 1 := constantI S_ 1 1#1
  let main_v47 : IVec S_ 1 := (fun x v => Host.reduce IntOp.andi x v reducesTo_S2049_S_d0 h_S_) main_v46 main_c_17
  let main_v48 : IVec S_ 1 := andi main_v43 main_v47
  main_v48

def fn_part1 {F : FTy → Type} [FloatOps F] (main_arg4 : FVec F S1x8192 .f32) (main_arg5 : FVec F S1x8192 .f32) (main_arg6 : FVec F S2049x512 .f32) (main_arg7 : FVec F S2049x512 .f32) (main_arg8 : FVec F S2049x512 .f32) (main_arg9 : FVec F S2049 .f32) (main_v13 : IVec S_ 1) (main_v16 : IVec S512x8192 1) : IVec S_ 1 :=
  let main_c_5 : IVec S_ 1 := constantI S_ 1 1#1
  let main_v17 : IVec S_ 1 := (fun x v => Host.reduce IntOp.andi x v reducesTo_S512x8192_S_d0_1 h_S_) main_v16 main_c_5
  let main_v18 : IVec S_ 1 := andi main_v13 main_v17
  let main_v19 : FVec F S1x8192 .f32 := Host.absf main_arg4
  let main_cst_6 : FVec F S_ .f32 := constant S_ .f32 0x7F800000#32
  let main_v20 : FVec F S1x8192 .f32 := broadcastInDim S1x8192 ![] bcast_S_S1x8192 main_cst_6
  let main_v21 : IVec S1x8192 1 := cmpf .olt main_v19 main_v20
  let main_c_7 : IVec S_ 1 := constantI S_ 1 1#1
  let main_v22 : IVec S_ 1 := (fun x v => Host.reduce IntOp.andi x v reducesTo_S1x8192_S_d0_1 h_S_) main_v21 main_c_7
  let main_v23 : IVec S_ 1 := andi main_v18 main_v22
  let main_v24 : FVec F S1x8192 .f32 := Host.absf main_arg5
  let main_cst_8 : FVec F S_ .f32 := constant S_ .f32 0x7F800000#32
  let main_v25 : FVec F S1x8192 .f32 := broadcastInDim S1x8192 ![] bcast_S_S1x8192 main_cst_8
  let main_v26 : IVec S1x8192 1 := cmpf .olt main_v24 main_v25
  let main_c_9 : IVec S_ 1 := constantI S_ 1 1#1
  let main_v27 : IVec S_ 1 := (fun x v => Host.reduce IntOp.andi x v reducesTo_S1x8192_S_d0_1 h_S_) main_v26 main_c_9
  let main_v28 : IVec S_ 1 := andi main_v23 main_v27
  let main_v29 : FVec F S2049x512 .f32 := Host.absf main_arg6
  let main_cst_10 : FVec F S_ .f32 := constant S_ .f32 0x7F800000#32
  let main_v30 : FVec F S2049x512 .f32 := broadcastInDim S2049x512 ![] bcast_S_S2049x512 main_cst_10
  let main_v31 : IVec S2049x512 1 := cmpf .olt main_v29 main_v30
  let main_c_11 : IVec S_ 1 := constantI S_ 1 1#1
  let main_v32 : IVec S_ 1 := (fun x v => Host.reduce IntOp.andi x v reducesTo_S2049x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x8192 .f32) (main_arg1 : FVec F S512x8192 .f32) (main_arg2 : FVec F S512x8192 .f32) (main_arg3 : FVec F S512x8192 .f32) (main_arg4 : FVec F S1x8192 .f32) (main_arg5 : FVec F S1x8192 .f32) (main_arg6 : FVec F S2049x512 .f32) (main_arg7 : FVec F S2049x512 .f32) (main_arg8 : FVec F S2049x512 .f32) (main_arg9 : FVec F S2049 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S512x8192 .f32 := Host.absf main_arg2
  let main_cst_2 : FVec F S_ .f32 := constant S_ .f32 0x7F800000#32
  let main_v10 : FVec F S512x8192 .f32 := broadcastInDim S512x8192 ![] bcast_S_S512x8192 main_cst_2
  let main_v11 : IVec S512x8192 1 := cmpf .olt main_v9 main_v10
  let main_c_3 : IVec S_ 1 := constantI S_ 1 1#1
  let main_v12 : IVec S_ 1 := (fun x v => Host.reduce IntOp.andi x v reducesTo_S512x8192_S_d0_1 h_S_) main_v11 main_c_3
  let main_v13 : IVec S_ 1 := andi main_v8 main_v12
  let main_v14 : FVec F S512x8192 .f32 := Host.absf main_arg3
  let main_cst_4 : FVec F S_ .f32 := constant S_ .f32 0x7F800000#32
  let main_v15 : FVec F S512x8192 .f32 := broadcastInDim S512x8192 ![] bcast_S_S512x8192 main_cst_4
  let main_v16 : IVec S512x8192 1 := cmpf .olt main_v14 main_v15
  fn_part1 (F := F) main_arg4 main_arg5 main_arg6 main_arg7 main_arg8 main_arg9 main_v13 main_v16
-- ==== Kernel.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S2049x1 : Shape := ⟨2, ![2049, 1]⟩
abbrev S512x256 : Shape := ⟨2, ![512, 256]⟩
abbrev S1x256 : Shape := ⟨2, ![1, 256]⟩
abbrev S2049x256 : Shape := ⟨2, ![2049, 256]⟩

abbrev nBuf : Space → Nat
  | .hbm => 14
  | .vmem => 22
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S1x8192, .f32⟩
  | .hbm, ⟨5, _⟩ => ⟨S1x8192, .f32⟩
  | .hbm, ⟨6, _⟩ => ⟨S2049x512, .f32⟩
  | .hbm, ⟨7, _⟩ => ⟨S2049x512, .f32⟩
  | .hbm, ⟨8, _⟩ => ⟨S2049x512, .f32⟩
  | .hbm, ⟨9, _⟩ => ⟨S2049, .f32⟩
  | .hbm, ⟨10, _⟩ => ⟨S2049x1, .f32⟩
  | .hbm, ⟨11, _⟩ => ⟨S512x8192, .f32⟩
  | .hbm, ⟨12, _⟩ => ⟨S512x8192, .f32⟩
  | .hbm, ⟨13, _⟩ => ⟨S1x8192, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2049x512, .f32⟩
  | .local _ .vmem, ⟨13, _⟩ => ⟨S2049x512, .f32⟩
  | .local _ .vmem, ⟨14, _⟩ => ⟨S2049x512, .f32⟩
  | .local _ .vmem, ⟨15, _⟩ => ⟨S2049x1, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S1x256, .f32⟩
  | .local _ .vmem, ⟨21, _⟩ => ⟨S1x256, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2049x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2049x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2049x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2049x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S2049_S2049x1 : S2049.ShapeCasts S2049x1
  inb_S1x256_S1x256_0_0 : ∀ a, (![0, 0] : Fin 2 → Nat) a + S1x256.size a ≤ S1x256.size a
  h_S1x256 : 0 < S1x256.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2049x512_S2049x512_0_0 : ∀ a, (![0, 0] : Fin 2 → Nat) a + S2049x512.size a ≤ S2049x512.size a
  h_S2049x512 : 0 < S2049x512.numel
  broadcasts_S1x256_S2049x256 : S1x256.Broadcasts S2049x256
  inb_S2049x1_S2049x1_0_0 : ∀ a, (![0, 0] : Fin 2 → Nat) a + S2049x1.size a ≤ S2049x1.size a
  h_S2049x1 : 0 < S2049x1.numel
  shapeCasts_S2049x1_S2049x1 : S2049x1.ShapeCasts S2049x1
  broadcasts_S2049x1_S2049x256 : S2049x1.Broadcasts S2049x256
  slices_S2049x256_o0_0_S512x256 : S2049x256.Slices ![0, 0] S512x256
  slices_S2049x256_o512_0_S512x256 : S2049x256.Slices ![512, 0] S512x256
  slices_S2049x256_o1024_0_S512x256 : S2049x256.Slices ![1024, 0] S512x256
  slices_S2049x256_o1536_0_S512x256 : S2049x256.Slices ![1536, 0] S512x256
  slices_S2049x256_o2048_0_S1x256 : S2049x256.Slices ![2048, 0] S1x256
  broadcasts_S1x256_S512x256 : S1x256.Broadcasts S512x256
  dot_S2049x512_S512x256_S2049x256_1_0_0_1_n_n_wf : DotDims.WF S2049x512 S512x256 S2049x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x8192.size a
  hwx0_0 : ∀ i : grid0.Coords, EltTy.bits .f32 = 32 ∨ (Rect.block (s := S512x8192) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x8192.size a
  hwx0_1 : ∀ i : grid0.Coords, EltTy.bits .f32 = 32 ∨ (Rect.block (s := S512x8192) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x8192.size a
  hwx0_2 : ∀ i : grid0.Coords, EltTy.bits .f32 = 32 ∨ (Rect.block (s := S512x8192) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x8192.size a
  hwx0_3 : ∀ i : grid0.Coords, EltTy.bits .f32 = 32 ∨ (Rect.block (s := S512x8192) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2049x512.size a ≤ S2049x512.size a
  hwx0_6 : ∀ i : grid0.Coords, EltTy.bits .f32 = 32 ∨ (Rect.block (s := S2049x512) S2049x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2049x512.size a ≤ S2049x512.size a
  hwx0_7 : ∀ i : grid0.Coords, EltTy.bits .f32 = 32 ∨ (Rect.block (s := S2049x512) S2049x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2049x512.size a ≤ S2049x512.size a
  hwx0_8 : ∀ i : grid0.Coords, EltTy.bits .f32 = 32 ∨ (Rect.block (s := S2049x512) S2049x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2049x1.size a ≤ S2049x1.size a
  hwx0_9 : ∀ i : grid0.Coords, EltTy.bits .f32 = 32 ∨ (Rect.block (s := S2049x1) S2049x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x8192.size a
  hwx0_10 : ∀ i : grid0.Coords, EltTy.bits .f32 = 32 ∨ (Rect.block (s := S512x8192) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x8192.size a
  hwx0_11 : ∀ i : grid0.Coords, EltTy.bits .f32 = 32 ∨ (Rect.block (s := S512x8192) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x8192.size a
  hwx0_12 : ∀ i : grid0.Coords, EltTy.bits .f32 = 32 ∨ (Rect.block (s := S1x8192) S1x256.size (cc0_transform_12 i) (hinb0_12 i)).WholeWords (EltTy.packing .f32)

variable [Facts₀]

def dot_S2049x512_S512x256_S2049x256_1_0_0_1_n_n : DotDims S2049x512 S512x256 S2049x256 where
  lhsContracting := [1]
  rhsContracting := [0]
  lhsNonContracting := [0]
  rhsNonContracting := [1]
  lhsBatch := []
  rhsBatch := []
  wf := dot_S2049x512_S512x256_S2049x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2049x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2049x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2049x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2049x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_1) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_2) S1x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S_ : Shape := ⟨0, ![]⟩
abbrev S2049x8192 : Shape := ⟨2, ![2049, 8192]⟩
abbrev S2049x1 : Shape := ⟨2, ![2049, 1]⟩

abbrev nBuf : Space → Nat
  | .hbm => 118
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S1x8192, .f32⟩
  | .hbm, ⟨5, _⟩ => ⟨S1x8192, .f32⟩
  | .hbm, ⟨6, _⟩ => ⟨S2049x512, .f32⟩
  | .hbm, ⟨7, _⟩ => ⟨S2049x512, .f32⟩
  | .hbm, ⟨8, _⟩ => ⟨S2049x512, .f32⟩
  | .hbm, ⟨9, _⟩ => ⟨S2049, .f32⟩
  | .hbm, ⟨10, _⟩ => ⟨S_, .f32⟩
  | .hbm, ⟨11, _⟩ => ⟨S1x8192, .f32⟩
  | .hbm, ⟨12, _⟩ => ⟨S1x8192, .f32⟩
  | .hbm, ⟨13, _⟩ => ⟨S2049x8192, .f32⟩
  | .hbm, ⟨14, _⟩ => ⟨S2049x8192, .f32⟩
  | .hbm, ⟨15, _⟩ => ⟨S2049x8192, .f32⟩
  | .hbm, ⟨16, _⟩ => ⟨S2049x8192, .f32⟩
  | .hbm, ⟨17, _⟩ => ⟨S2049x8192, .f32⟩
  | .hbm, ⟨18, _⟩ => ⟨S2049x8192, .f32⟩
  | .hbm, ⟨19, _⟩ => ⟨S2049x8192, .f32⟩
  | .hbm, ⟨20, _⟩ => ⟨S2049x8192, .f32⟩
  | .hbm, ⟨21, _⟩ => ⟨S2049x8192, .f32⟩
  | .hbm, ⟨22, _⟩ => ⟨S2049x8192, .f32⟩
  | .hbm, ⟨23, _⟩ => ⟨S2049x8192, .f32⟩
  | .hbm, ⟨24, _⟩ => ⟨S2049x1, .f32⟩
  | .hbm, ⟨25, _⟩ => ⟨S2049x8192, .f32⟩
  | .hbm, ⟨26, _⟩ => ⟨S2049x8192, .f32⟩
  | .hbm, ⟨27, _⟩ => ⟨S512x8192, .f32⟩
  | .hbm, ⟨28, _⟩ => ⟨S512x8192, .f32⟩
  | .hbm, ⟨29, _⟩ => ⟨S512x8192, .f32⟩
  | .hbm, ⟨30, _⟩ => ⟨S_, .f32⟩
  | .hbm, ⟨31, _⟩ => ⟨S512x8192, .f32⟩
  | .hbm, ⟨32, _⟩ => ⟨S512x8192, .f32⟩
  | .hbm, ⟨33, _⟩ => ⟨S_, .f32⟩
  | .hbm, ⟨34, _⟩ => ⟨S512x8192, .f32⟩
  | .hbm, ⟨35, _⟩ => ⟨S512x8192, .f32⟩
  | .hbm, ⟨36, _⟩ => ⟨S512x8192, .f32⟩
  | .hbm, ⟨37, _⟩ => ⟨S512x8192, .f32⟩
  | .hbm, ⟨38, _⟩ => ⟨S512x8192, .f32⟩
  | .hbm, ⟨39, _⟩ => ⟨S_, .f32⟩
  | .hbm, ⟨40, _⟩ => ⟨S512x8192, .f32⟩
  | .hbm, ⟨41, _⟩ => ⟨S512x8192, .f32⟩
  | .hbm, ⟨42, _⟩ => ⟨S_, .f32⟩
  | .hbm, ⟨43, _⟩ => ⟨S512x8192, .f32⟩
  | .hbm, ⟨44, _⟩ => ⟨S512x8192, .f32⟩
  | .hbm, ⟨45, _⟩ => ⟨S512x8192, .f32⟩
  | .hbm, ⟨46, _⟩ => ⟨S512x8192, .f32⟩
  | .hbm, ⟨47, _⟩ => ⟨S512x8192, .f32⟩
  | .hbm, ⟨48, _⟩ => ⟨S_, .f32⟩
  | .hbm, ⟨49, _⟩ => ⟨S512x8192, .f32⟩
  | .hbm, ⟨50, _⟩ => ⟨S512x8192, .f32⟩
  | .hbm, ⟨51, _⟩ => ⟨S_, .f32⟩
  | .hbm, ⟨52, _⟩ => ⟨S512x8192, .f32⟩
  | .hbm, ⟨53, _⟩ => ⟨S512x8192, .f32⟩
  | .hbm, ⟨54, _⟩ => ⟨S512x8192, .f32⟩
  | .hbm, ⟨55, _⟩ => ⟨S512x8192, .f32⟩
  | .hbm, ⟨56, _⟩ => ⟨S1x8192, .f32⟩
  | .hbm, ⟨57, _⟩ => ⟨S_, .f32⟩
  | .hbm, ⟨58, _⟩ => ⟨S1x8192, .f32⟩
  | .hbm, ⟨59, _⟩ => ⟨S1x8192, .f32⟩
  | .hbm, ⟨60, _⟩ => ⟨S_, .f32⟩
  | .hbm, ⟨61, _⟩ => ⟨S1x8192, .f32⟩
  | .hbm, ⟨62, _⟩ => ⟨S1x8192, .f32⟩
  | .hbm, ⟨63, _⟩ => ⟨S_, .f32⟩
  | .hbm, ⟨64, _⟩ => ⟨S1x8192, .f32⟩
  | .hbm, ⟨65, _⟩ => ⟨S1x8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S_, .f32⟩
  | .hbm, ⟨72, _⟩ => ⟨S1x8192, .f32⟩
  | .hbm, ⟨73, _⟩ => ⟨S1x8192, .f32⟩
  | .hbm, ⟨74, _⟩ => ⟨S512x8192, .f32⟩
  | .hbm, ⟨75, _⟩ => ⟨S512x8192, .f32⟩
  | .hbm, ⟨76, _⟩ => ⟨S512x8192, .f32⟩
  | .hbm, ⟨77, _⟩ => ⟨S_, .f32⟩
  | .hbm, ⟨78, _⟩ => ⟨S1x8192, .f32⟩
  | .hbm, ⟨79, _⟩ => ⟨S1x8192, .f32⟩
  | .hbm, ⟨80, _⟩ => ⟨S_, .f32⟩
  | .hbm, ⟨81, _⟩ => ⟨S1x8192, .f32⟩
  | .hbm, ⟨82, _⟩ => ⟨S1x8192, .f32⟩
  | .hbm, ⟨83, _⟩ => ⟨S1x8192, .f32⟩
  | .hbm, ⟨84, _⟩ => ⟨S512x8192, .f32⟩
  | .hbm, ⟨85, _⟩ => ⟨S512x8192, .f32⟩
  | .hbm, ⟨86, _⟩ => ⟨S512x8192, .f32⟩
  | .hbm, ⟨87, _⟩ => ⟨S_, .f32⟩
  | .hbm, ⟨88, _⟩ => ⟨S1x8192, .f32⟩
  | .hbm, ⟨89, _⟩ => ⟨S1x8192, .f32⟩
  | .hbm, ⟨90, _⟩ => ⟨S1x8192, .f32⟩
  | .hbm, ⟨91, _⟩ => ⟨S512x8192, .f32⟩
  | .hbm, ⟨92, _⟩ => ⟨S512x8192, .f32⟩
  | .hbm, ⟨93, _⟩ => ⟨S512x8192, .f32⟩
  | .hbm, ⟨94, _⟩ => ⟨S512x8192, .f32⟩
  | .hbm, ⟨95, _⟩ => ⟨S512x8192, .f32⟩
  | .hbm, ⟨96, _⟩ => ⟨S512x8192, .f32⟩
  | .hbm, ⟨97, _⟩ => ⟨S512x8192, .f32⟩
  | .hbm, ⟨98, _⟩ => ⟨S512x8192, .f32⟩
  | .hbm, ⟨99, _⟩ => ⟨S512x8192, .f32⟩
  | .hbm, ⟨100, _⟩ => ⟨S_, .f32⟩
  | .hbm, ⟨101, _⟩ => ⟨S1x8192, .f32⟩
  | .hbm, ⟨102, _⟩ => ⟨S1x8192, .f32⟩
  | .hbm, ⟨103, _⟩ => ⟨S_, .f32⟩
  | .hbm, ⟨104, _⟩ => ⟨S1x8192, .f32⟩
  | .hbm, ⟨105, _⟩ => ⟨S1x8192, .f32⟩
  | .hbm, ⟨106, _⟩ => ⟨S1x8192, .f32⟩
  | .hbm, ⟨107, _⟩ => ⟨S512x8192, .f32⟩
  | .hbm, ⟨108, _⟩ => ⟨S512x8192, .f32⟩
  | .hbm, ⟨109, _⟩ => ⟨S512x8192, .f32⟩
  | .hbm, ⟨110, _⟩ => ⟨S_, .f32⟩
  | .hbm, ⟨111, _⟩ => ⟨S1x8192, .f32⟩
  | .hbm, ⟨112, _⟩ => ⟨S1x8192, .f32⟩
  | .hbm, ⟨113, _⟩ => ⟨S1x8192, .f32⟩
  | .hbm, ⟨114, _⟩ => ⟨S512x8192, .f32⟩
  | .hbm, ⟨115, _⟩ => ⟨S512x8192, .f32⟩
  | .hbm, ⟨116, _⟩ => ⟨S512x8192, .f32⟩
  | .hbm, ⟨117, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  bcast_S1x8192_S2049x8192_0_1 : S1x8192.BroadcastsInDim S2049x8192 (![0, 1] : Fin 2 → Fin S2049x8192.rank)
  bcast_S2049_S2049x1_0 : S2049.BroadcastsInDim S2049x1 (![0] : Fin 1 → Fin S2049x1.rank)
  bcast_S2049x1_S2049x8192_0_1 : S2049x1.BroadcastsInDim S2049x8192 (![0, 1] : Fin 2 → Fin S2049x8192.rank)
  slices_S2049x8192_S512x8192_0_0 : S2049x8192.Slices ![0, 0] S512x8192
  bcast_S_S512x8192 : S_.BroadcastsInDim S512x8192 (![] : Fin 0 → Fin S512x8192.rank)
  slices_S2049x8192_S512x8192_512_0 : S2049x8192.Slices ![512, 0] S512x8192
  slices_S2049x8192_S512x8192_1024_0 : S2049x8192.Slices ![1024, 0] S512x8192
  slices_S2049x8192_S512x8192_1536_0 : S2049x8192.Slices ![1536, 0] S512x8192
  slices_S2049x8192_S1x8192_2048_0 : S2049x8192.Slices ![2048, 0] S1x8192
  bcast_S1x8192_S512x8192_0_1 : S1x8192.BroadcastsInDim S512x8192 (![0, 1] : Fin 2 → Fin S512x8192.rank)
  dot_S2049x512_S512x8192_S2049x8192_1_0_0_1_n_n_wf : DotDims.WF S2049x512 S512x8192 S2049x8192 [1] [0] [0] [1] [] []

variable [Facts₀]

def dot_S2049x512_S512x8192_S2049x8192_1_0_0_1_n_n : DotDims S2049x512 S512x8192 S2049x8192 where
  lhsContracting := [1]
  rhsContracting := [0]
  lhsNonContracting := [0]
  rhsNonContracting := [1]
  lhsBatch := []
  rhsBatch := []
  wf := dot_S2049x512_S512x8192_S2049x8192_1_0_0_1_n_n_wf

class Facts : Prop extends Facts₀ where

variable [Facts]
-- ==== Proof.Cell.lean ====
/-
  The cell's arithmetic, on extended reals, one entry at a time.

  With H = 512 hidden units, an entry of the gate pre-activation is
      s(r, j) = (U₁₁ h)[r, j] · (1 − z[j]) + (U₂₁ h_top)[r, j] · z[j] + (W₀₁ h_bottom)[r, j] · z_b[j] + bias[r],
  r < 4H + 1 = 2049; rows r = p, p + H, p + 2H, p + 3H (p < H) feed the forget, input and output gates (through the
  logistic function) and the candidate (through tanh), and row 4H the boundary detector (a hard sigmoid). The new cell
  state, the new hidden state and the boundary value are the three functions below of those entries and of the
  boundary indicators z, z_b of column j.
-/
import Idealize.ShloMosaic.PureOps.Ideal
import Idealize.ShloMosaic.PureOps.Ideal.Laws
import Idealize.ShloMosaic.Lib.ValueIdx

open scoped BigOperators

noncomputable section

namespace Cert.Cell

open Idealize.ShloMosaic Idealize.ShloMosaic.ValueIdx

/-- The float literals of both programs: 1.0, 2.0 and 0.0 as single-precision words. -/
abbrev one : EReal := Ideal.ofBits .f32 0x3F800000#32
abbrev two : EReal := Ideal.ofBits .f32 0x40000000#32
abbrev zero : EReal := Ideal.ofBits .f32 0x00000000#32

/-- One entry of the gate pre-activation from the three matrix-product entries `s₁ s₂ s₃`, the two boundary
    indicators and the bias entry. -/
def gate (s₁ s₂ s₃ z zb b : EReal) : EReal := ((s₁ * (one - z) + s₂ * z) + s₃ * zb) + b

/-- The new cell state from the old one `c` and the pre-activations `f i g` of the forget gate, the input gate and
    the candidate: a copy where neither boundary fires, an update where only the lower one does, a reset where the
    own boundary does. -/
def cNew (z zb c f i g : EReal) : EReal :=
  (z * (Ideal.logistic i * Ideal.tanh g) + (one - z) * (one - zb) * c)
    + (one - z) * zb * (Ideal.logistic f * c + Ideal.logistic i * Ideal.tanh g)

/-- The new hidden state from the old one `h`, the output gate's pre-activation `o` and the new cell state `cn`. -/
def hNew (z zb h o cn : EReal) : EReal :=
  ((z * Ideal.logistic o) * Ideal.tanh cn + (one - z) * (one - zb) * h)
    + ((one - z) * zb * Ideal.logistic o) * Ideal.tanh cn

/-- The boundary detector: the hard sigmoid clip((u · 1 + 1) / 2, 0, 1) of the last row's pre-activation. -/
def zHat (u : EReal) : EReal := min one (max zero (Ideal.div (u * one + one) two))

/-- The word 0x3F800000 is the number one. -/
theorem one_eq : one = 1 := by
  show Ideal.ofBits .f32 0x3F800000#32 = 1
  simp [Ideal.ofBits, Ideal.ieee]
  rw [← EReal.coe_mul, ← EReal.coe_one]
  congr 1
  norm_num

/-- The logistic function spelt out with the literal one, as the host program computes it: 1 / (1 + e^(−x)). -/
theorem logistic_spelt (x : EReal) : Ideal.div one (one + Ideal.exp (-x)) = Ideal.logistic x := by
  rw [one_eq]; rfl

/-! ## One column of the batch

Everything in column `j` of the three results depends only on column `j` of the four state arrays and of the two
indicator rows (and on the whole weight matrices and bias). The functions below take that column as plain functions
of the hidden index. -/

/-- Row `p` of the forget-gate band (rows 0 … 511 of the 2049). -/
abbrev rowF (p : Fin 512) : Fin 2049 := ⟨p.val, by have := p.isLt; omega⟩
/-- Row `p` of the band that starts at row `o` (512: input gate, 1024: output gate, 1536: candidate). -/
abbrev rowAt (o : Nat) (ho : o + 512 ≤ 2049) (p : Fin 512) : Fin 2049 := ⟨o + p.val, by have := p.isLt; omega⟩
/-- The last row, 2048: the boundary detector's. -/
abbrev rowZ : Fin 2049 := ⟨2048, by omega⟩

section
variable (U₁ U₂ W : Fin 2049 → Fin 512 → EReal) (b : Fin 2049 → EReal)
variable (h ht hb : Fin 512 → EReal) (z zb : EReal)

/-- Row `r` of the column's gate pre-activation: the three matrix–vector products against the column's own, upper
    and lower hidden states, gated by the indicators, plus the bias. -/
def pre (r : Fin 2049) : EReal :=
  gate (∑ k : Fin 512, U₁ r k * h k) (∑ k : Fin 512, U₂ r k * ht k) (∑ k : Fin 512, W r k * hb k) z zb (b r)

/-- Entry `p` of the column's new cell state, from the old cell state `c`. -/
def cellC (c : Fin 512 → EReal) (p : Fin 512) : EReal :=
  cNew z zb (c p) (pre U₁ U₂ W b h ht hb z zb (rowF p)) (pre U₁ U₂ W b h ht hb z zb (rowAt 512 (by omega) p))
    (pre U₁ U₂ W b h ht hb z zb (rowAt 1536 (by omega) p))

/-- Entry `p` of the column's new hidden state. -/
def cellH (c : Fin 512 → EReal) (p : Fin 512) : EReal :=
  hNew z zb (h p) (pre U₁ U₂ W b h ht hb z zb (rowAt 1024 (by omega) p)) (cellC U₁ U₂ W b h ht hb z zb c p)

/-- The column's boundary value. -/
def cellZ : EReal := zHat (pre U₁ U₂ W b h ht hb z zb rowZ)

end

/-! ## The three results as whole arrays

The arguments are the old cell state `c`, the lower, own and upper hidden states `hb h ht` (512 × 8192 each), the two
indicator rows `z zb` (1 × 8192), the three weight matrices (2049 × 512) and the bias vector (2049). -/

section
variable (c hb h ht : (⟨2, ![512, 8192]⟩ : Shape).Idx → EReal) (z zb : (⟨2, ![1, 8192]⟩ : Shape).Idx → EReal)
  (u₁ u₂ w : (⟨2, ![2049, 512]⟩ : Shape).Idx → EReal) (bias : (⟨1, ![2049]⟩ : Shape).Idx → EReal)

/-- The new hidden state at (p, j). -/
def entH (p : Fin 512) (j : Fin 8192) : EReal :=
  cellH (fun r k => u₁ (ix2 r k)) (fun r k => u₂ (ix2 r k)) (fun r k => w (ix2 r k)) (fun r => bias (ix1 r))
    (fun k => h (ix2 k j)) (fun k => ht (ix2 k j)) (fun k => hb (ix2 k j)) (z (ix2 (0 : Fin 1) j)) (zb (ix2 (0 : Fin 1) j))
    (fun p => c (ix2 p j)) p

/-- The new cell state at (p, j). -/
def entC (p : Fin 512) (j : Fin 8192) : EReal :=
  cellC (fun r k => u₁ (ix2 r k)) (fun r k => u₂ (ix2 r k)) (fun r k => w (ix2 r k)) (fun r => bias (ix1 r))
    (fun k => h (ix2 k j)) (fun k => ht (ix2 k j)) (fun k => hb (ix2 k j)) (z (ix2 (0 : Fin 1) j)) (zb (ix2 (0 : Fin 1) j))
    (fun p => c (ix2 p j)) p

/-- The boundary value of column j. -/
def entZ (j : Fin 8192) : EReal :=
  cellZ (fun r k => u₁ (ix2 r k)) (fun r k => u₂ (ix2 r k)) (fun r k => w (ix2 r k)) (fun r => bias (ix1 r))
    (fun k => h (ix2 k j)) (fun k => ht (ix2 k j)) (fun k => hb (ix2 k j)) (z (ix2 (0 : Fin 1) j)) (zb (ix2 (0 : Fin 1) j))

def arrH : (⟨2, ![512, 8192]⟩ : Shape).Idx → EReal := fun i => entH c hb h ht z zb u₁ u₂ w bias (i 0) (i 1)
def arrC : (⟨2, ![512, 8192]⟩ : Shape).Idx → EReal := fun i => entC c hb h ht z zb u₁ u₂ w bias (i 0) (i 1)
def arrZ : (⟨2, ![1, 8192]⟩ : Shape).Idx → EReal := fun i => entZ hb h ht z zb u₁ u₂ w bias (i 1)

theorem arrH_ix2 (p : Fin 512) (j : Fin 8192) : arrH c hb h ht z zb u₁ u₂ w bias (ix2 p j) = entH c hb h ht z zb u₁ u₂ w bias p j := rfl
theorem arrC_ix2 (p : Fin 512) (j : Fin 8192) : arrC c hb h ht z zb u₁ u₂ w bias (ix2 p j) = entC c hb h ht z zb u₁ u₂ w bias p j := rfl
theorem arrZ_ix2 (u : Fin 1) (j : Fin 8192) : arrZ hb h ht z zb u₁ u₂ w bias (ix2 u j) = entZ hb h ht z zb u₁ u₂ w bias j := rfl

end

end Cert.Cell

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.KernelEntry.lean ====
/-
  What one grid point's body computes, entry by entry.

  A grid point holds a tile of 256 columns of the batch. The body forms the tile's 2049 × 256 gate pre-activation
  (three matrix products against the whole weight matrices, each gated by an indicator row, plus the bias column),
  cuts it into the four gate bands and the detector row, and applies the cell's pointwise update. Read at row `p`
  and tile column `q`, each of its three stored values is the cell's function (`Cert.Cell`) of column `q` of the
  tile's blocks.
-/
import proofs.«180965_j11879879544318_1_alg».proof.Proof.Gen.KernelIdeal.Skeleton
import proofs.«180965_j11879879544318_1_alg».proof.Proof.Cell
import proofs.«180965_j11879879544318_1_alg».proof.Proof.LibPlainDot
import proofs.«180965_j11879879544318_1_alg».proof.Proof.LibColumn
import Idealize.ShloMosaic.Lib.ValueIdx
import Idealize.ShloMosaic.Lib.ValueLayout
import Idealize.ShloMosaic.Lib.Pipeline.Value

open scoped BigOperators

noncomputable section

namespace Cert.KernelIdeal.Entry

open Cert.KernelIdeal Cert.KernelIdeal.Gen Idealize.ShloMosaic Idealize.ShloMosaic.ValueIdx Cert.Cell

/-- The body's three products contract the weights' second axis with the states' first: a plain
    2049 × 512 by 512 × 256 product. -/
theorem dot_plain : dot_S2049x512_S512x256_S2049x256_1_0_0_1_n_n = DotDims.plain 2049 512 256 := rfl

/-- The tile's gate pre-activation at (r, q) is the column's `pre` at row r: each product entry is a sum over the
    512 hidden units, each indicator row and the bias column are read where their broadcasts put them, and the
    narrowing of the products' operands changes nothing on the extended reals. -/
theorem pre_apply (z zb : Vec Ideal S1x256 .f32) (h hb ht : Vec Ideal S512x256 .f32) (u1 u2 w : Vec Ideal S2049x512 .f32)
    (b : Vec Ideal S2049x1 .f32) (r : Fin 2049) (q : Fin 256) :
    k0_pay1 (F := Ideal) z zb h hb ht u1 u2 w b (ix2 r q)
      = pre (fun r k => u1 (ix2 r k)) (fun r k => u2 (ix2 r k)) (fun r k => w (ix2 r k)) (fun r => b (ix2 r (0 : Fin 1)))
          (fun k => h (ix2 k q)) (fun k => ht (ix2 k q)) (fun k => hb (ix2 k q)) (z (ix2 (0 : Fin 1) q)) (zb (ix2 (0 : Fin 1) q)) r := by
  unfold k0_pay1
  simp only [addf_apply, mulf_apply, subf_apply, broadcast_apply, broadcastTo_1b_ab_apply,
    Idealize.ShloMosaic.Column.broadcastTo_a1_ab_apply (show (2049 : ℕ) ≠ 1 by decide), shapeCast_self,
    matmul, dot_plain, Cert.PlainDot.matmul_zero_apply, truncf_apply, Ideal.ofBits_def]
  unfold pre gate
  rfl

/-! ## The five bands of the pre-activation -/

variable (V : FVec Ideal S2049x256 .f32)

theorem bandF (p : Fin 512) (q : Fin 256) :
    extractStridedSlice S512x256 ![0, 0] V slices_S2049x256_o0_0_S512x256 (ix2 p q) = V (ix2 (rowF p) q) :=
  slice2_axis0_apply 0 V _ p q (rowF p) (Nat.zero_add _).symm

theorem bandI (p : Fin 512) (q : Fin 256) :
    extractStridedSlice S512x256 ![512, 0] V slices_S2049x256_o512_0_S512x256 (ix2 p q) = V (ix2 (rowAt 512 (by omega) p) q) :=
  slice2_axis0_apply 512 V _ p q _ rfl

theorem bandO (p : Fin 512) (q : Fin 256) :
    extractStridedSlice S512x256 ![1024, 0] V slices_S2049x256_o1024_0_S512x256 (ix2 p q) = V (ix2 (rowAt 1024 (by omega) p) q) :=
  slice2_axis0_apply 1024 V _ p q _ rfl

theorem bandG (p : Fin 512) (q : Fin 256) :
    extractStridedSlice S512x256 ![1536, 0] V slices_S2049x256_o1536_0_S512x256 (ix2 p q) = V (ix2 (rowAt 1536 (by omega) p) q) :=
  slice2_axis0_apply 1536 V _ p q _ rfl

theorem bandZ (q : Fin 256) :
    extractStridedSlice S1x256 ![2048, 0] V slices_S2049x256_o2048_0_S1x256 (ix2 (0 : Fin 1) q) = V (ix2 rowZ q) :=
  slice2_axis0_apply 2048 V _ 0 q rowZ rfl

/-! ## The pointwise update over a pre-activation `V` -/

/-- The stored new cell state at (p, q). -/
theorem cnew_apply (z zb : Vec Ideal S1x256 .f32) (c : Vec Ideal S512x256 .f32) (p : Fin 512) (q : Fin 256) :
    k0_pay7 (F := Ideal) z zb c V (logistic (extractStridedSlice S512x256 ![0, 0] V slices_S2049x256_o0_0_S512x256))
        (extractStridedSlice S512x256 ![512, 0] V slices_S2049x256_o512_0_S512x256) (ix2 p q)
      = cNew (z (ix2 (0 : Fin 1) q)) (zb (ix2 (0 : Fin 1) q)) (c (ix2 p q)) (V (ix2 (rowF p) q))
          (V (ix2 (rowAt 512 (by omega) p) q)) (V (ix2 (rowAt 1536 (by omega) p) q)) := by
  unfold k0_pay7 k0_pay5 k0_pay6
  simp only [addf_apply, mulf_apply, subf_apply, broadcast_apply, broadcastTo_1b_ab_apply, logistic, tanh,
    bandF, bandI, bandG, Ideal.logistic_def, Ideal.tanh_def, Ideal.ofBits_def]
  unfold cNew
  rfl

/-- The stored new hidden state at (p, q). -/
theorem hnew_apply (z zb : Vec Ideal S1x256 .f32) (h c : Vec Ideal S512x256 .f32) (p : Fin 512) (q : Fin 256) :
    k0_pay8 (F := Ideal) z zb h c V (logistic (extractStridedSlice S512x256 ![0, 0] V slices_S2049x256_o0_0_S512x256))
        (extractStridedSlice S512x256 ![512, 0] V slices_S2049x256_o512_0_S512x256) (ix2 p q)
      = hNew (z (ix2 (0 : Fin 1) q)) (zb (ix2 (0 : Fin 1) q)) (h (ix2 p q)) (V (ix2 (rowAt 1024 (by omega) p) q))
          (cNew (z (ix2 (0 : Fin 1) q)) (zb (ix2 (0 : Fin 1) q)) (c (ix2 p q)) (V (ix2 (rowF p) q))
            (V (ix2 (rowAt 512 (by omega) p) q)) (V (ix2 (rowAt 1536 (by omega) p) q))) := by
  unfold k0_pay8 k0_pay5 k0_pay6
  simp only [addf_apply, mulf_apply, subf_apply, broadcast_apply, broadcastTo_1b_ab_apply, logistic, tanh,
    bandO, Ideal.logistic_def, Ideal.tanh_def, Ideal.ofBits_def]
  rw [cnew_apply V z zb c p q]
  unfold hNew
  rfl

/-- The stored boundary value at tile column q. -/
theorem zhat_apply (q : Fin 256) : k0_pay4 (F := Ideal) V (ix2 (0 : Fin 1) q) = zHat (V (ix2 rowZ q)) := by
  unfold k0_pay4
  simp only [addf_apply, mulf_apply, divf_apply, maximumf_apply, minimumf_apply, broadcast_apply, bandZ, Ideal.ofBits_def]
  unfold zHat
  rfl

/-! ## The three stores -/

section
variable (z zb : Vec Ideal S1x256 .f32) (h hb ht c : Vec Ideal S512x256 .f32) (u1 u2 w : Vec Ideal S2049x512 .f32)
  (b : Vec Ideal S2049x1 .f32)

/-- What the body stores to the hidden-state window, at (p, q). -/
theorem store_h (p : Fin 512) (q : Fin 256) :
    k0_pay8 (F := Ideal) z zb h c (k0_pay1 z zb h hb ht u1 u2 w b) (k0_pay2 z zb h hb ht u1 u2 w b) (k0_pay3 z zb h hb ht u1 u2 w b) (ix2 p q)
      = cellH (fun r k => u1 (ix2 r k)) (fun r k => u2 (ix2 r k)) (fun r k => w (ix2 r k)) (fun r => b (ix2 r (0 : Fin 1)))
          (fun k => h (ix2 k q)) (fun k => ht (ix2 k q)) (fun k => hb (ix2 k q)) (z (ix2 (0 : Fin 1) q)) (zb (ix2 (0 : Fin 1) q))
          (fun p => c (ix2 p q)) p := by
  refine (hnew_apply (k0_pay1 (F := Ideal) z zb h hb ht u1 u2 w b) z zb h c p q).trans ?_
  simp only [pre_apply]
  rfl

/-- What the body stores to the cell-state window, at (p, q). -/
theorem store_c (p : Fin 512) (q : Fin 256) :
    k0_pay7 (F := Ideal) z zb c (k0_pay1 z zb h hb ht u1 u2 w b) (k0_pay2 z zb h hb ht u1 u2 w b) (k0_pay3 z zb h hb ht u1 u2 w b) (ix2 p q)
      = cellC (fun r k => u1 (ix2 r k)) (fun r k => u2 (ix2 r k)) (fun r k => w (ix2 r k)) (fun r => b (ix2 r (0 : Fin 1)))
          (fun k => h (ix2 k q)) (fun k => ht (ix2 k q)) (fun k => hb (ix2 k q)) (z (ix2 (0 : Fin 1) q)) (zb (ix2 (0 : Fin 1) q))
          (fun p => c (ix2 p q)) p := by
  refine (cnew_apply (k0_pay1 (F := Ideal) z zb h hb ht u1 u2 w b) z zb c p q).trans ?_
  simp only [pre_apply]
  rfl

/-- What the body stores to the boundary window, at tile column q. -/
theorem store_z (q : Fin 256) :
    k0_pay4 (F := Ideal) (k0_pay1 z zb h hb ht u1 u2 w b) (ix2 (0 : Fin 1) q)
      = cellZ (fun r k => u1 (ix2 r k)) (fun r k => u2 (ix2 r k)) (fun r k => w (ix2 r k)) (fun r => b (ix2 r (0 : Fin 1)))
          (fun k => h (ix2 k q)) (fun k => ht (ix2 k q)) (fun k => hb (ix2 k q)) (z (ix2 (0 : Fin 1) q)) (zb (ix2 (0 : Fin 1) q)) := by
  refine (zhat_apply (k0_pay1 (F := Ideal) z zb h hb ht u1 u2 w b) q).trans ?_
  simp only [pre_apply]
  rfl

end

end Cert.KernelIdeal.Entry

end
-- ==== Proof.KernelArrays.lean ====
/-
  From tiles to arrays.

  The grid has 32 points; point `t` holds columns 256 t … 256 t + 255 of the six batch-shaped operands (four state
  arrays, two indicator rows) and of the three results, and the whole of the three weight matrices and the bias
  column. So what point `t` writes back at (p, q) is the cell's function of batch column 256 t + q (`KernelEntry`), the
  32 tiles cover the batch, and each result array ends as the cell's whole-array function of the arguments.
-/
import proofs.«180965_j11879879544318_1_alg».proof.Proof.Gen.KernelIdeal.Value
import proofs.«180965_j11879879544318_1_alg».proof.Proof.KernelEntry
import Idealize.ShloMosaic.Lib.StableHlo.Run

open scoped BigOperators

noncomputable section

namespace Cert.KernelIdeal.Arrays

open Cert.KernelIdeal Cert.KernelIdeal.Gen Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The tiles -/

abbrev cB (c : Dev nD) (t : Fin cfg0.N) : Vec Ideal S512x256 .f32 := iblk m c 0 t
abbrev hbB (c : Dev nD) (t : Fin cfg0.N) : Vec Ideal S512x256 .f32 := iblk m c 1 t
abbrev hB (c : Dev nD) (t : Fin cfg0.N) : Vec Ideal S512x256 .f32 := iblk m c 2 t
abbrev htB (c : Dev nD) (t : Fin cfg0.N) : Vec Ideal S512x256 .f32 := iblk m c 3 t
abbrev zB (c : Dev nD) (t : Fin cfg0.N) : Vec Ideal S1x256 .f32 := iblk m c 4 t
abbrev zbB (c : Dev nD) (t : Fin cfg0.N) : Vec Ideal S1x256 .f32 := iblk m c 5 t
abbrev u1B (c : Dev nD) (t : Fin cfg0.N) : Vec Ideal S2049x512 .f32 := iblk m c 6 t
abbrev u2B (c : Dev nD) (t : Fin cfg0.N) : Vec Ideal S2049x512 .f32 := iblk m c 7 t
abbrev wB (c : Dev nD) (t : Fin cfg0.N) : Vec Ideal S2049x512 .f32 := iblk m c 8 t
abbrev bB (c : Dev nD) (t : Fin cfg0.N) : Vec Ideal S2049x1 .f32 := iblk m c 9 t

/-- Column `q` of tile `t` is column 256 t + q of the batch. -/
def col (t : Fin cfg0.N) (q : Fin 256) : Fin 8192 :=
  ⟨t.val * 256 + q.val, by have ht : t.val < cfg0.N := t.isLt; have hN : cfg0.N = 32 := N_0; have := q.isLt; omega⟩

theorem col_val (t : Fin cfg0.N) (q : Fin 256) : (col t q).val = t.val * 256 + q.val := rfl

/-- The printed index maps over the grid: the batch-shaped windows sit at block (0, t), the weights and the bias
    at block (0, 0). -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = t.val)
    ∧ (win0_11.index t (0 : Fin 2) = 0 ∧ win0_11.index t (1 : Fin 2) = t.val)
    ∧ (win0_12.index t (0 : Fin 2) = 0 ∧ win0_12.index t (1 : Fin 2) = t.val) :=
  (by decide +kernel : ∀ t : Fin grid0.N, _)

/-! ## Each tile read at an index -/

theorem read_c (c : Dev nD) (t : Fin cfg0.N) (k : Fin 512) (q : Fin 256) :
    cB m c t (ix2 k q) = V m c main_arg0 (ix2 k (col t q)) := by
  show V m c main_arg0 (((cfg0.win 0).blk t).view.emb (ix2 k q)) = _
  have e : ((cfg0.win 0).blk t).view.emb (ix2 k q) = ix2 k (col t q) := by
    obtain ⟨⟨e0, e1⟩, -⟩ := idx_facts t
    funext a; apply Fin.ext
    match a with
    | ⟨0, _⟩ => show win0_0.index t (0 : Fin 2) * 512 + 1 * k.val = k.val; omega
    | ⟨1, _⟩ => show win0_0.index t (1 : Fin 2) * 256 + 1 * q.val = t.val * 256 + q.val; omega
  rw [e]

theorem read_hb (c : Dev nD) (t : Fin cfg0.N) (k : Fin 512) (q : Fin 256) :
    hbB m c t (ix2 k q) = V m c main_arg1 (ix2 k (col t q)) := by
  show V m c main_arg1 (((cfg0.win 1).blk t).view.emb (ix2 k q)) = _
  have e : ((cfg0.win 1).blk t).view.emb (ix2 k q) = ix2 k (col t q) := by
    obtain ⟨-, ⟨e0, e1⟩, -⟩ := idx_facts t
    funext a; apply Fin.ext
    match a with
    | ⟨0, _⟩ => show win0_1.index t (0 : Fin 2) * 512 + 1 * k.val = k.val; omega
    | ⟨1, _⟩ => show win0_1.index t (1 : Fin 2) * 256 + 1 * q.val = t.val * 256 + q.val; omega
  rw [e]

theorem read_h (c : Dev nD) (t : Fin cfg0.N) (k : Fin 512) (q : Fin 256) :
    hB m c t (ix2 k q) = V m c main_arg2 (ix2 k (col t q)) := by
  show V m c main_arg2 (((cfg0.win 2).blk t).view.emb (ix2 k q)) = _
  have e : ((cfg0.win 2).blk t).view.emb (ix2 k q) = ix2 k (col t q) := by
    obtain ⟨-, -, ⟨e0, e1⟩, -⟩ := idx_facts t
    funext a; apply Fin.ext
    match a with
    | ⟨0, _⟩ => show win0_2.index t (0 : Fin 2) * 512 + 1 * k.val = k.val; omega
    | ⟨1, _⟩ => show win0_2.index t (1 : Fin 2) * 256 + 1 * q.val = t.val * 256 + q.val; omega
  rw [e]

theorem read_ht (c : Dev nD) (t : Fin cfg0.N) (k : Fin 512) (q : Fin 256) :
    htB m c t (ix2 k q) = V m c main_arg3 (ix2 k (col t q)) := by
  show V m c main_arg3 (((cfg0.win 3).blk t).view.emb (ix2 k q)) = _
  have e : ((cfg0.win 3).blk t).view.emb (ix2 k q) = ix2 k (col t q) := by
    obtain ⟨-, -, -, ⟨e0, e1⟩, -⟩ := idx_facts t
    funext a; apply Fin.ext
    match a with
    | ⟨0, _⟩ => show win0_3.index t (0 : Fin 2) * 512 + 1 * k.val = k.val; omega
    | ⟨1, _⟩ => show win0_3.index t (1 : Fin 2) * 256 + 1 * q.val = t.val * 256 + q.val; omega
  rw [e]

theorem read_z (c : Dev nD) (t : Fin cfg0.N) (u : Fin 1) (q : Fin 256) :
    zB m c t (ix2 u q) = V m c main_arg4 (ix2 (0 : Fin 1) (col t q)) := by
  show V m c main_arg4 (((cfg0.win 4).blk t).view.emb (ix2 u q)) = _
  have e : ((cfg0.win 4).blk t).view.emb (ix2 u q) = ix2 (0 : Fin 1) (col t q) := by
    obtain ⟨-, -, -, -, ⟨e0, e1⟩, -⟩ := idx_facts t
    have hu : u.val = 0 := by omega
    funext a; apply Fin.ext
    match a with
    | ⟨0, _⟩ => show win0_4.index t (0 : Fin 2) * 1 + 1 * u.val = 0; omega
    | ⟨1, _⟩ => show win0_4.index t (1 : Fin 2) * 256 + 1 * q.val = t.val * 256 + q.val; omega
  rw [e]

theorem read_zb (c : Dev nD) (t : Fin cfg0.N) (u : Fin 1) (q : Fin 256) :
    zbB m c t (ix2 u q) = V m c main_arg5 (ix2 (0 : Fin 1) (col t q)) := by
  show V m c main_arg5 (((cfg0.win 5).blk t).view.emb (ix2 u q)) = _
  have e : ((cfg0.win 5).blk t).view.emb (ix2 u q) = ix2 (0 : Fin 1) (col t q) := by
    obtain ⟨-, -, -, -, -, ⟨e0, e1⟩, -⟩ := idx_facts t
    have hu : u.val = 0 := by omega
    funext a; apply Fin.ext
    match a with
    | ⟨0, _⟩ => show win0_5.index t (0 : Fin 2) * 1 + 1 * u.val = 0; omega
    | ⟨1, _⟩ => show win0_5.index t (1 : Fin 2) * 256 + 1 * q.val = t.val * 256 + q.val; omega
  rw [e]

theorem read_u1 (c : Dev nD) (t : Fin cfg0.N) (r : Fin 2049) (k : Fin 512) :
    u1B m c t (ix2 r k) = V m c main_arg6 (ix2 r k) := by
  show V m c main_arg6 (((cfg0.win 6).blk t).view.emb (ix2 r k)) = _
  have e : ((cfg0.win 6).blk t).view.emb (ix2 r k) = ix2 r k := by
    obtain ⟨-, -, -, -, -, -, ⟨e0, e1⟩, -⟩ := idx_facts t
    funext a; apply Fin.ext
    match a with
    | ⟨0, _⟩ => show win0_6.index t (0 : Fin 2) * 2049 + 1 * r.val = r.val; omega
    | ⟨1, _⟩ => show win0_6.index t (1 : Fin 2) * 512 + 1 * k.val = k.val; omega
  rw [e]

theorem read_u2 (c : Dev nD) (t : Fin cfg0.N) (r : Fin 2049) (k : Fin 512) :
    u2B m c t (ix2 r k) = V m c main_arg7 (ix2 r k) := by
  show V m c main_arg7 (((cfg0.win 7).blk t).view.emb (ix2 r k)) = _
  have e : ((cfg0.win 7).blk t).view.emb (ix2 r k) = ix2 r k := by
    obtain ⟨-, -, -, -, -, -, -, ⟨e0, e1⟩, -⟩ := idx_facts t
    funext a; apply Fin.ext
    match a with
    | ⟨0, _⟩ => show win0_7.index t (0 : Fin 2) * 2049 + 1 * r.val = r.val; omega
    | ⟨1, _⟩ => show win0_7.index t (1 : Fin 2) * 512 + 1 * k.val = k.val; omega
  rw [e]

theorem read_w (c : Dev nD) (t : Fin cfg0.N) (r : Fin 2049) (k : Fin 512) :
    wB m c t (ix2 r k) = V m c main_arg8 (ix2 r k) := by
  show V m c main_arg8 (((cfg0.win 8).blk t).view.emb (ix2 r k)) = _
  have e : ((cfg0.win 8).blk t).view.emb (ix2 r k) = ix2 r k := by
    obtain ⟨-, -, -, -, -, -, -, -, ⟨e0, e1⟩, -⟩ := idx_facts t
    funext a; apply Fin.ext
    match a with
    | ⟨0, _⟩ => show win0_8.index t (0 : Fin 2) * 2049 + 1 * r.val = r.val; omega
    | ⟨1, _⟩ => show win0_8.index t (1 : Fin 2) * 512 + 1 * k.val = k.val; omega
  rw [e]

/-- The bias reaches the body as a column: the host reshapes the vector to 2049 × 1 before the launch. -/
theorem bias_col (c : Dev nD) :
    (V m c main_v0 : S2049x1.Idx → EReal) = shapeCast S2049x1 (m ((c : Thread nD τ).loc main_arg9)) shapeCasts_S2049_S2049x1 := by
  dsimp only [Gen.V, Gen.hostOps0]; after_results; rfl

theorem read_b (c : Dev nD) (t : Fin cfg0.N) (r : Fin 2049) :
    bB m c t (ix2 r (0 : Fin 1)) = m ((c : Thread nD τ).loc main_arg9) (ix1 r) := by
  show V m c main_v0 (((cfg0.win 9).blk t).view.emb (ix2 r (0 : Fin 1))) = _
  have e : ((cfg0.win 9).blk t).view.emb (ix2 r (0 : Fin 1)) = ix2 r (0 : Fin 1) := by
    obtain ⟨-, -, -, -, -, -, -, -, -, ⟨e0, e1⟩, -⟩ := idx_facts t
    funext a; apply Fin.ext
    match a with
    | ⟨0, _⟩ => show win0_9.index t (0 : Fin 2) * 2049 + 1 * r.val = r.val; omega
    | ⟨1, _⟩ => show win0_9.index t (1 : Fin 2) * 1 + 1 * 0 = 0; omega
  rw [e, bias_col]
  exact Idealize.ShloMosaic.Column.shapeCast_a_a1_apply _ _ r 0

/-! ## What a point writes back -/

/-- The arguments as the region finds them, in the cell's order. -/
abbrev GH (c : Dev nD) : S512x8192.Idx → EReal :=
  arrH (V m c main_arg0) (V m c main_arg1) (V m c main_arg2) (V m c main_arg3) (V m c main_arg4) (V m c main_arg5)
    (V m c main_arg6) (V m c main_arg7) (V m c main_arg8) (m ((c : Thread nD τ).loc main_arg9))
abbrev GC (c : Dev nD) : S512x8192.Idx → EReal :=
  arrC (V m c main_arg0) (V m c main_arg1) (V m c main_arg2) (V m c main_arg3) (V m c main_arg4) (V m c main_arg5)
    (V m c main_arg6) (V m c main_arg7) (V m c main_arg8) (m ((c : Thread nD τ).loc main_arg9))
abbrev GZ (c : Dev nD) : S1x8192.Idx → EReal :=
  arrZ (V m c main_arg1) (V m c main_arg2) (V m c main_arg3) (V m c main_arg4) (V m c main_arg5)
    (V m c main_arg6) (V m c main_arg7) (V m c main_arg8) (m ((c : Thread nD τ).loc main_arg9))

theorem out_h (c : Dev nD) (t : Fin cfg0.N) (p : Fin 512) (q : Fin 256) :
    out0_10 (cB m c t) (hbB m c t) (hB m c t) (htB m c t) (zB m c t) (zbB m c t) (u1B m c t) (u2B m c t) (wB m c t) (bB m c t) (ix2 p q)
      = GH m c (ix2 p (col t q)) := by
  unfold out0_10
  rw [View.canon_unit_zero hz]
  simp only [View.ld_unit_zero (S := S1x256) hz, View.ld_unit_zero (S := S512x256) hz, View.ld_unit_zero (S := S2049x512) hz,
    View.ld_unit_zero (S := S2049x1) hz]
  refine (Entry.store_h (zB m c t) (zbB m c t) (hB m c t) (hbB m c t) (htB m c t) (cB m c t) (u1B m c t) (u2B m c t) (wB m c t) (bB m c t) p q).trans ?_
  simp only [read_c, read_hb, read_h, read_ht, read_z, read_zb, read_u1, read_u2, read_w, read_b]
  rfl

theorem out_c (c : Dev nD) (t : Fin cfg0.N) (p : Fin 512) (q : Fin 256) :
    out0_11 (cB m c t) (hbB m c t) (hB m c t) (htB m c t) (zB m c t) (zbB m c t) (u1B m c t) (u2B m c t) (wB m c t) (bB m c t) (ix2 p q)
      = GC m c (ix2 p (col t q)) := by
  unfold out0_11
  rw [View.canon_unit_zero hz]
  simp only [View.ld_unit_zero (S := S1x256) hz, View.ld_unit_zero (S := S512x256) hz, View.ld_unit_zero (S := S2049x512) hz,
    View.ld_unit_zero (S := S2049x1) hz]
  refine (Entry.store_c (zB m c t) (zbB m c t) (hB m c t) (hbB m c t) (htB m c t) (cB m c t) (u1B m c t) (u2B m c t) (wB m c t) (bB m c t) p q).trans ?_
  simp only [read_c, read_hb, read_h, read_ht, read_z, read_zb, read_u1, read_u2, read_w, read_b]
  rfl

theorem out_z (c : Dev nD) (t : Fin cfg0.N) (q : Fin 256) :
    out0_12 (cB m c t) (hbB m c t) (hB m c t) (htB m c t) (zB m c t) (zbB m c t) (u1B m c t) (u2B m c t) (wB m c t) (bB m c t) (ix2 (0 : Fin 1) q)
      = GZ m c (ix2 (0 : Fin 1) (col t q)) := by
  unfold out0_12
  rw [View.canon_unit_zero hz]
  simp only [View.ld_unit_zero (S := S1x256) hz, View.ld_unit_zero (S := S512x256) hz, View.ld_unit_zero (S := S2049x512) hz,
    View.ld_unit_zero (S := S2049x1) hz]
  refine (Entry.store_z (zB m c t) (zbB m c t) (hB m c t) (hbB m c t) (htB m c t) (u1B m c t) (u2B m c t) (wB m c t) (bB m c t) q).trans ?_
  simp only [read_hb, read_h, read_ht, read_z, read_zb, read_u1, read_u2, read_w, read_b]
  rfl

/-- Where tile `t` of a 512 × 8192 result puts its entry (p, q). -/
theorem emb_h (t : Fin cfg0.N) (p : Fin 512) (q : Fin 256) : ((cfg0.win 10).blk t).view.emb (ix2 p q) = ix2 p (col t q) := by
  obtain ⟨-, -, -, -, -, -, -, -, -, -, ⟨e0, e1⟩, -⟩ := idx_facts t
  funext a; apply Fin.ext
  match a with
  | ⟨0, _⟩ => show win0_10.index t (0 : Fin 2) * 512 + 1 * p.val = p.val; omega
  | ⟨1, _⟩ => show win0_10.index t (1 : Fin 2) * 256 + 1 * q.val = t.val * 256 + q.val; omega

theorem emb_c (t : Fin cfg0.N) (p : Fin 512) (q : Fin 256) : ((cfg0.win 11).blk t).view.emb (ix2 p q) = ix2 p (col t q) := by
  obtain ⟨-, -, -, -, -, -, -, -, -, -, -, ⟨e0, e1⟩, -⟩ := idx_facts t
  funext a; apply Fin.ext
  match a with
  | ⟨0, _⟩ => show win0_11.index t (0 : Fin 2) * 512 + 1 * p.val = p.val; omega
  | ⟨1, _⟩ => show win0_11.index t (1 : Fin 2) * 256 + 1 * q.val = t.val * 256 + q.val; omega

theorem emb_z (t : Fin cfg0.N) (u : Fin 1) (q : Fin 256) : ((cfg0.win 12).blk t).view.emb (ix2 u q) = ix2 (0 : Fin 1) (col t q) := by
  obtain ⟨-, -, -, -, -, -, -, -, -, -, -, -, ⟨e0, e1⟩⟩ := idx_facts t
  have hu : u.val = 0 := by omega
  funext a; apply Fin.ext
  match a with
  | ⟨0, _⟩ => show win0_12.index t (0 : Fin 2) * 1 + 1 * u.val = 0; omega
  | ⟨1, _⟩ => show win0_12.index t (1 : Fin 2) * 256 + 1 * q.val = t.val * 256 + q.val; omega

/-- Point `t` writes back tile `t` of the new hidden state. -/
theorem flushed_h (c : Dev nD) (t : Fin cfg0.N) :
    (dats m 0 c).flushed 10 t = ((cfg0.win 10).blk t).view.read (Elt Ideal) (GH m c) := by
  rw [Value.flushed10]
  funext y
  obtain ⟨p, q, rfl⟩ : ∃ (p : Fin 512) (q : Fin 256), y = ix2 p q := ⟨y 0, y 1, eq_ix2 y⟩
  show out0_10 (cB m c t) (hbB m c t) (hB m c t) (htB m c t) (zB m c t) (zbB m c t) (u1B m c t) (u2B m c t) (wB m c t) (bB m c t) (ix2 p q)
    = GH m c (((cfg0.win 10).blk t).view.emb (ix2 p q))
  rw [emb_h]
  exact out_h m c t p q

/-- Point `t` writes back tile `t` of the new cell state. -/
theorem flushed_c (c : Dev nD) (t : Fin cfg0.N) :
    (dats m 0 c).flushed 11 t = ((cfg0.win 11).blk t).view.read (Elt Ideal) (GC m c) := by
  rw [Value.flushed11]
  funext y
  obtain ⟨p, q, rfl⟩ : ∃ (p : Fin 512) (q : Fin 256), y = ix2 p q := ⟨y 0, y 1, eq_ix2 y⟩
  show out0_11 (cB m c t) (hbB m c t) (hB m c t) (htB m c t) (zB m c t) (zbB m c t) (u1B m c t) (u2B m c t) (wB m c t) (bB m c t) (ix2 p q)
    = GC m c (((cfg0.win 11).blk t).view.emb (ix2 p q))
  rw [emb_c]
  exact out_c m c t p q

/-- Point `t` writes back tile `t` of the boundary row. -/
theorem flushed_z (c : Dev nD) (t : Fin cfg0.N) :
    (dats m 0 c).flushed 12 t = ((cfg0.win 12).blk t).view.read (Elt Ideal) (GZ m c) := by
  rw [Value.flushed12]
  funext y
  obtain ⟨u, q, rfl⟩ : ∃ (u : Fin 1) (q : Fin 256), y = ix2 u q := ⟨y 0, y 1, eq_ix2 y⟩
  obtain rfl : u = 0 := Subsingleton.elim _ _
  show out0_12 (cB m c t) (hbB m c t) (hB m c t) (htB m c t) (zB m c t) (zbB m c t) (u1B m c t) (u2B m c t) (wB m c t) (bB m c t) (ix2 (0 : Fin 1) q)
    = GZ m c (((cfg0.win 12).blk t).view.emb (ix2 (0 : Fin 1) q))
  rw [emb_z]
  exact out_z m c t q

/-! ## The 32 tiles cover the batch -/

theorem mem_blk_h (t : Fin cfg0.N) (i : S512x8192.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v1_0).slice (win0_10.rect t)).set ↔ _
  rw [View.set_slice_whole, Rect.mem_set_unit]
  exact Iff.rfl

theorem mem_blk_c (t : Fin cfg0.N) (i : S512x8192.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v1_1).slice (win0_11.rect t)).set ↔ _
  rw [View.set_slice_whole, Rect.mem_set_unit]
  exact Iff.rfl

theorem mem_blk_z (t : Fin cfg0.N) (i : S1x8192.Idx) :
    i ∈ ((cfg0.win 12).blk t).view.set ↔ ∀ a : Fin 2, win0_12.index t a * S1x256.size a ≤ (i a).val ∧ (i a).val < win0_12.index t a * S1x256.size a + S1x256.size a := by
  show i ∈ ((View.whole main_v1_2).slice (win0_12.rect t)).set ↔ _
  rw [View.set_slice_whole, Rect.mem_set_unit]
  exact Iff.rfl

/-- The tile that holds batch column `j`: number j / 256. -/
def tileOf (j : Nat) (hj : j < 8192) : Fin cfg0.N := ⟨j / 256, by have hN : cfg0.N = 32 := N_0; omega⟩

theorem tileOf_val (j : Nat) (hj : j < 8192) : (tileOf j hj).val = j / 256 := rfl

theorem cover_h (i : S512x8192.Idx) : ∃ t : Fin cfg0.N, (cfg0.win 10).flush t = true ∧ i ∈ ((cfg0.win 10).blk t).view.set := by
  have hi0 : (i 0).val < 512 := (i 0).isLt
  have hi1 : (i 1).val < 8192 := (i 1).isLt
  refine ⟨tileOf (i 1).val hi1, flush0_10 _, ?_⟩
  rw [mem_blk_h]
  obtain ⟨-, -, -, -, -, -, -, -, -, -, ⟨e0, e1⟩, -⟩ := idx_facts (tileOf (i 1).val hi1)
  have hv := tileOf_val (i 1).val hi1
  intro a
  match a with
  | ⟨0, _⟩ => show win0_10.index (tileOf (i 1).val hi1) (0 : Fin 2) * 512 ≤ (i 0).val ∧ (i 0).val < win0_10.index (tileOf (i 1).val hi1) (0 : Fin 2) * 512 + 512; omega
  | ⟨1, _⟩ => show win0_10.index (tileOf (i 1).val hi1) (1 : Fin 2) * 256 ≤ (i 1).val ∧ (i 1).val < win0_10.index (tileOf (i 1).val hi1) (1 : Fin 2) * 256 + 256; omega

theorem cover_c (i : S512x8192.Idx) : ∃ t : Fin cfg0.N, (cfg0.win 11).flush t = true ∧ i ∈ ((cfg0.win 11).blk t).view.set := by
  have hi0 : (i 0).val < 512 := (i 0).isLt
  have hi1 : (i 1).val < 8192 := (i 1).isLt
  refine ⟨tileOf (i 1).val hi1, flush0_11 _, ?_⟩
  rw [mem_blk_c]
  obtain ⟨-, -, -, -, -, -, -, -, -, -, -, ⟨e0, e1⟩, -⟩ := idx_facts (tileOf (i 1).val hi1)
  have hv := tileOf_val (i 1).val hi1
  intro a
  match a with
  | ⟨0, _⟩ => show win0_11.index (tileOf (i 1).val hi1) (0 : Fin 2) * 512 ≤ (i 0).val ∧ (i 0).val < win0_11.index (tileOf (i 1).val hi1) (0 : Fin 2) * 512 + 512; omega
  | ⟨1, _⟩ => show win0_11.index (tileOf (i 1).val hi1) (1 : Fin 2) * 256 ≤ (i 1).val ∧ (i 1).val < win0_11.index (tileOf (i 1).val hi1) (1 : Fin 2) * 256 + 256; omega

theorem cover_z (i : S1x8192.Idx) : ∃ t : Fin cfg0.N, (cfg0.win 12).flush t = true ∧ i ∈ ((cfg0.win 12).blk t).view.set := by
  have hi0 : (i 0).val < 1 := (i 0).isLt
  have hi1 : (i 1).val < 8192 := (i 1).isLt
  refine ⟨tileOf (i 1).val hi1, flush0_12 _, ?_⟩
  rw [mem_blk_z]
  obtain ⟨-, -, -, -, -, -, -, -, -, -, -, -, ⟨e0, e1⟩⟩ := idx_facts (tileOf (i 1).val hi1)
  have hv := tileOf_val (i 1).val hi1
  intro a
  match a with
  | ⟨0, _⟩ => show win0_12.index (tileOf (i 1).val hi1) (0 : Fin 2) * 1 ≤ (i 0).val ∧ (i 0).val < win0_12.index (tileOf (i 1).val hi1) (0 : Fin 2) * 1 + 1; omega
  | ⟨1, _⟩ => show win0_12.index (tileOf (i 1).val hi1) (1 : Fin 2) * 256 ≤ (i 1).val ∧ (i 1).val < win0_12.index (tileOf (i 1).val hi1) (1 : Fin 2) * 256 + 256; omega

/-! ## The arrays after the run -/

/-- The arguments as launched, in the cell's order. -/
abbrev AH (c : Dev nD) : S512x8192.Idx → EReal :=
  arrH (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
abbrev AC (c : Dev nD) : S512x8192.Idx → EReal :=
  arrC (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
abbrev AZ (c : Dev nD) : S1x8192.Idx → EReal :=
  arrZ (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem GH_eq (c : Dev nD) : GH m c = AH m c := by
  unfold GH AH
  rw [V_main_arg0, V_main_arg1, V_main_arg2, V_main_arg3, V_main_arg4, V_main_arg5, V_main_arg6, V_main_arg7, V_main_arg8]
theorem GC_eq (c : Dev nD) : GC m c = AC m c := by
  unfold GC AC
  rw [V_main_arg0, V_main_arg1, V_main_arg2, V_main_arg3, V_main_arg4, V_main_arg5, V_main_arg6, V_main_arg7, V_main_arg8]
theorem GZ_eq (c : Dev nD) : GZ m c = AZ m c := by
  unfold GZ AZ
  rw [V_main_arg1, V_main_arg2, V_main_arg3, V_main_arg4, V_main_arg5, V_main_arg6, V_main_arg7, V_main_arg8]

theorem final_h (c : Dev nD) : (dats m 0 c).arrAt 10 cfg0.N = AH m c :=
  ((dats m 0 c).arrAt_eq_of_cover 10 (GH m c) (fun t _ => flushed_h m c t) cover_h).trans (GH_eq m c)
theorem final_c (c : Dev nD) : (dats m 0 c).arrAt 11 cfg0.N = AC m c :=
  ((dats m 0 c).arrAt_eq_of_cover 11 (GC m c) (fun t _ => flushed_c m c t) cover_c).trans (GC_eq m c)
theorem final_z (c : Dev nD) : (dats m 0 c).arrAt 12 cfg0.N = AZ m c :=
  ((dats m 0 c).arrAt_eq_of_cover 12 (GZ m c) (fun t _ => flushed_z m c t) cover_z).trans (GZ_eq m c)

/-- The kernel's run with its three result arrays read: each is the cell's whole-array function of the arguments,
    and the arguments are unchanged. -/
theorem run : θ_run defs (onTc (τ := τ) (main (F := Ideal))) ⟨m, fun _ => 0, ρ⟩ fun r => ∀ c : Dev nD,
      r.2.mem ((c : Thread nD τ).loc main_v1_0) = AH m c
      ∧ r.2.mem ((c : Thread nD τ).loc main_v1_1) = AC m c
      ∧ r.2.mem ((c : Thread nD τ).loc main_v1_2) = AZ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_h m c), (h c).2.1.trans (final_c m c),
      (h c).2.2.1.trans (final_z m c), (h c).2.2.2⟩)
    (Value.run_blocks m ρ)

end Cert.KernelIdeal.Arrays

end
-- ==== Proof.RefEntry.lean ====
/-
  What the reference computes, entry by entry.

  The reference forms the whole 2049 × 8192 gate pre-activation at once, slices it into the four gate bands and the
  detector row, spells the logistic function out as 1 / (1 + e^(−x)), and applies the cell's pointwise update with the
  indicator rows broadcast down the hidden axis. Read at (p, j), each of its three results is the cell's function
  (`Cert.Cell`) of column `j` of the argument arrays. The only algebra used is the commutativity of the product on the
  extended reals (the reference multiplies indicator × product, the cell's formula product × indicator) and the
  identity 1 / (1 + e^(−x)) = logistic x.
-/
import proofs.«180965_j11879879544318_1_alg».proof.Proof.Gen.ReferenceIdeal.Read
import proofs.«180965_j11879879544318_1_alg».proof.Proof.Cell
import Idealize.ShloMosaic.Lib.ValueIdx

open scoped BigOperators

noncomputable section

namespace Cert.ReferenceIdeal.Entry

open Cert.ReferenceIdeal Cert.ReferenceIdeal.Read Idealize.ShloMosaic Idealize.ShloMosaic.ValueIdx Cert.Cell

variable (x0 x1 x2 x3 : (⟨S512x8192, .f32⟩ : BufTy).Contents (Elt Ideal)) (x4 x5 : (⟨S1x8192, .f32⟩ : BufTy).Contents (Elt Ideal))
  (x6 x7 x8 : (⟨S2049x512, .f32⟩ : BufTy).Contents (Elt Ideal)) (x9 : (⟨S2049, .f32⟩ : BufTy).Contents (Elt Ideal))

/-- Two rank-2 indices with the same two coordinates are equal. -/
local macro "idx2" : term => `(funext fun a => match a with | ⟨0, _⟩ => rfl | ⟨1, _⟩ => rfl)

/-! ## The indicator rows and the bias, broadcast over the 2049 rows -/

theorem row3 (r : Fin 2049) (j : Fin 8192) : val_main_v3 (F := Ideal) x4 (ix2 r j) = val_main_v1 (F := Ideal) x4 (ix2 (0 : Fin 1) j) :=
  (val_main_v3_apply x4 (ix2 r j)).trans (congrArg (val_main_v1 (F := Ideal) x4) idx2)
theorem row6 (r : Fin 2049) (j : Fin 8192) : val_main_v6 (F := Ideal) x4 (ix2 r j) = x4 (ix2 (0 : Fin 1) j) :=
  (val_main_v6_apply x4 (ix2 r j)).trans (congrArg x4 idx2)
theorem row9 (r : Fin 2049) (j : Fin 8192) : val_main_v9 (F := Ideal) x5 (ix2 r j) = x5 (ix2 (0 : Fin 1) j) :=
  (val_main_v9_apply x5 (ix2 r j)).trans (congrArg x5 idx2)
theorem col14 (r : Fin 2049) (j : Fin 8192) : val_main_v14 (F := Ideal) x9 (ix2 r j) = x9 (ix1 r) := by
  rw [val_main_v14_apply, val_main_v13_apply]
  exact congrArg x9 (funext fun a => match a with | ⟨0, _⟩ => rfl)

/-! ## The three matrix products -/

theorem dot2 (r : Fin 2049) (j : Fin 8192) : val_main_v2 (F := Ideal) x2 x6 (ix2 r j) = ∑ k : Fin 512, x6 (ix2 r k) * x2 (ix2 k j) := by
  rw [val_main_v2_apply]
  refine Finset.sum_congr rfl fun k _ => ?_
  rw [show lidx_main_v2 (ix2 r j) k = ix2 r k from idx2, show ridx_main_v2 (ix2 r j) k = ix2 k j from idx2]
theorem dot5 (r : Fin 2049) (j : Fin 8192) : val_main_v5 (F := Ideal) x3 x7 (ix2 r j) = ∑ k : Fin 512, x7 (ix2 r k) * x3 (ix2 k j) := by
  rw [val_main_v5_apply]
  refine Finset.sum_congr rfl fun k _ => ?_
  rw [show lidx_main_v5 (ix2 r j) k = ix2 r k from idx2, show ridx_main_v5 (ix2 r j) k = ix2 k j from idx2]
theorem dot8 (r : Fin 2049) (j : Fin 8192) : val_main_v8 (F := Ideal) x1 x8 (ix2 r j) = ∑ k : Fin 512, x8 (ix2 r k) * x1 (ix2 k j) := by
  rw [val_main_v8_apply]
  refine Finset.sum_congr rfl fun k _ => ?_
  rw [show lidx_main_v8 (ix2 r j) k = ix2 r k from idx2, show ridx_main_v8 (ix2 r j) k = ix2 k j from idx2]

/-- The reference's gate pre-activation at (r, j) is the column's `pre` at row r. -/
theorem pre15 (r : Fin 2049) (j : Fin 8192) :
    val_main_v15 (F := Ideal) x1 x2 x3 x4 x5 x6 x7 x8 x9 (ix2 r j)
      = pre (fun r k => x6 (ix2 r k)) (fun r k => x7 (ix2 r k)) (fun r k => x8 (ix2 r k)) (fun r => x9 (ix1 r))
          (fun k => x2 (ix2 k j)) (fun k => x3 (ix2 k j)) (fun k => x1 (ix2 k j)) (x4 (ix2 (0 : Fin 1) j)) (x5 (ix2 (0 : Fin 1) j)) r := by
  rw [val_main_v15_apply, val_main_v12_apply, val_main_v11_apply, val_main_v4_apply, val_main_v7_apply, val_main_v10_apply,
    row3, row6, row9, col14, dot2, dot5, dot8, val_main_v1_apply, val_main_v0_apply, val_main_cst_apply]
  simp only [Ideal.addf_def, Ideal.mulf_def, Ideal.subf_def, Ideal.ofBits_def]
  unfold pre gate
  rw [mul_comm (∑ k : Fin 512, x6 (ix2 r k) * x2 (ix2 k j)), mul_comm (∑ k : Fin 512, x7 (ix2 r k) * x3 (ix2 k j)),
    mul_comm (∑ k : Fin 512, x8 (ix2 r k) * x1 (ix2 k j))]

/-! ## The bands of the pre-activation, and the indicator rows broadcast over the 512 rows -/

theorem band16 (p : Fin 512) (j : Fin 8192) : val_main_v16 (F := Ideal) x1 x2 x3 x4 x5 x6 x7 x8 x9 (ix2 p j)
    = val_main_v15 (F := Ideal) x1 x2 x3 x4 x5 x6 x7 x8 x9 (ix2 (rowF p) j) :=
  (val_main_v16_apply x1 x2 x3 x4 x5 x6 x7 x8 x9 (ix2 p j)).trans (congrArg (val_main_v15 (F := Ideal) x1 x2 x3 x4 x5 x6 x7 x8 x9) idx2)
theorem band23 (p : Fin 512) (j : Fin 8192) : val_main_v23 (F := Ideal) x1 x2 x3 x4 x5 x6 x7 x8 x9 (ix2 p j)
    = val_main_v15 (F := Ideal) x1 x2 x3 x4 x5 x6 x7 x8 x9 (ix2 (rowAt 512 (by omega) p) j) :=
  (val_main_v23_apply x1 x2 x3 x4 x5 x6 x7 x8 x9 (ix2 p j)).trans (congrArg (val_main_v15 (F := Ideal) x1 x2 x3 x4 x5 x6 x7 x8 x9) idx2)
theorem band30 (p : Fin 512) (j : Fin 8192) : val_main_v30 (F := Ideal) x1 x2 x3 x4 x5 x6 x7 x8 x9 (ix2 p j)
    = val_main_v15 (F := Ideal) x1 x2 x3 x4 x5 x6 x7 x8 x9 (ix2 (rowAt 1024 (by omega) p) j) :=
  (val_main_v30_apply x1 x2 x3 x4 x5 x6 x7 x8 x9 (ix2 p j)).trans (congrArg (val_main_v15 (F := Ideal) x1 x2 x3 x4 x5 x6 x7 x8 x9) idx2)
theorem band37 (p : Fin 512) (j : Fin 8192) : val_main_v37 (F := Ideal) x1 x2 x3 x4 x5 x6 x7 x8 x9 (ix2 p j)
    = val_main_v15 (F := Ideal) x1 x2 x3 x4 x5 x6 x7 x8 x9 (ix2 (rowAt 1536 (by omega) p) j) :=
  (val_main_v37_apply x1 x2 x3 x4 x5 x6 x7 x8 x9 (ix2 p j)).trans (congrArg (val_main_v15 (F := Ideal) x1 x2 x3 x4 x5 x6 x7 x8 x9) idx2)
theorem band39 (j : Fin 8192) : val_main_v39 (F := Ideal) x1 x2 x3 x4 x5 x6 x7 x8 x9 (ix2 (0 : Fin 1) j)
    = val_main_v15 (F := Ideal) x1 x2 x3 x4 x5 x6 x7 x8 x9 (ix2 rowZ j) :=
  (val_main_v39_apply x1 x2 x3 x4 x5 x6 x7 x8 x9 (ix2 (0 : Fin 1) j)).trans (congrArg (val_main_v15 (F := Ideal) x1 x2 x3 x4 x5 x6 x7 x8 x9) idx2)

theorem row48 (p : Fin 512) (j : Fin 8192) : val_main_v48 (F := Ideal) x4 (ix2 p j) = x4 (ix2 (0 : Fin 1) j) :=
  (val_main_v48_apply x4 (ix2 p j)).trans (congrArg x4 idx2)
theorem row67 (p : Fin 512) (j : Fin 8192) : val_main_v67 (F := Ideal) x4 (ix2 p j) = x4 (ix2 (0 : Fin 1) j) :=
  (val_main_v67_apply x4 (ix2 p j)).trans (congrArg x4 idx2)
theorem row55 (p : Fin 512) (j : Fin 8192) : val_main_v55 (F := Ideal) x4 x5 (ix2 p j) = val_main_v54 (F := Ideal) x4 x5 (ix2 (0 : Fin 1) j) :=
  (val_main_v55_apply x4 x5 (ix2 p j)).trans (congrArg (val_main_v54 (F := Ideal) x4 x5) idx2)
theorem row63 (p : Fin 512) (j : Fin 8192) : val_main_v63 (F := Ideal) x4 x5 (ix2 p j) = val_main_v60 (F := Ideal) x4 x5 (ix2 (0 : Fin 1) j) :=
  (val_main_v63_apply x4 x5 (ix2 p j)).trans (congrArg (val_main_v60 (F := Ideal) x4 x5) idx2)
theorem row75 (p : Fin 512) (j : Fin 8192) : val_main_v75 (F := Ideal) x4 x5 (ix2 p j) = val_main_v74 (F := Ideal) x4 x5 (ix2 (0 : Fin 1) j) :=
  (val_main_v75_apply x4 x5 (ix2 p j)).trans (congrArg (val_main_v74 (F := Ideal) x4 x5) idx2)
theorem row81 (p : Fin 512) (j : Fin 8192) : val_main_v81 (F := Ideal) x4 x5 (ix2 p j) = val_main_v80 (F := Ideal) x4 x5 (ix2 (0 : Fin 1) j) :=
  (val_main_v81_apply x4 x5 (ix2 p j)).trans (congrArg (val_main_v80 (F := Ideal) x4 x5) idx2)

/-! ## The gates -/

/-- The forget gate: the spelt-out logistic function of the first band. -/
theorem gate22 (p : Fin 512) (j : Fin 8192) : val_main_v22 (F := Ideal) x1 x2 x3 x4 x5 x6 x7 x8 x9 (ix2 p j)
    = Ideal.logistic (val_main_v15 (F := Ideal) x1 x2 x3 x4 x5 x6 x7 x8 x9 (ix2 (rowF p) j)) := by
  rw [val_main_v22_apply, val_main_v21_apply, val_main_cst_1_apply, val_main_v20_apply, val_main_v19_apply, val_main_cst_0_apply,
    val_main_v18_apply, val_main_v17_apply, band16]
  simp only [Ideal.hostDivf_def, Ideal.addf_def, Ideal.hostUnary_exp_def, Ideal.hostNegf_def, Ideal.negf_def, Ideal.ofBits_def]
  exact logistic_spelt _

/-- The input gate. -/
theorem gate29 (p : Fin 512) (j : Fin 8192) : val_main_v29 (F := Ideal) x1 x2 x3 x4 x5 x6 x7 x8 x9 (ix2 p j)
    = Ideal.logistic (val_main_v15 (F := Ideal) x1 x2 x3 x4 x5 x6 x7 x8 x9 (ix2 (rowAt 512 (by omega) p) j)) := by
  rw [val_main_v29_apply, val_main_v28_apply, val_main_cst_3_apply, val_main_v27_apply, val_main_v26_apply, val_main_cst_2_apply,
    val_main_v25_apply, val_main_v24_apply, band23]
  simp only [Ideal.hostDivf_def, Ideal.addf_def, Ideal.hostUnary_exp_def, Ideal.hostNegf_def, Ideal.negf_def, Ideal.ofBits_def]
  exact logistic_spelt _

/-- The output gate. -/
theorem gate36 (p : Fin 512) (j : Fin 8192) : val_main_v36 (F := Ideal) x1 x2 x3 x4 x5 x6 x7 x8 x9 (ix2 p j)
    = Ideal.logistic (val_main_v15 (F := Ideal) x1 x2 x3 x4 x5 x6 x7 x8 x9 (ix2 (rowAt 1024 (by omega) p) j)) := by
  rw [val_main_v36_apply, val_main_v35_apply, val_main_cst_5_apply, val_main_v34_apply, val_main_v33_apply, val_main_cst_4_apply,
    val_main_v32_apply, val_main_v31_apply, band30]
  simp only [Ideal.hostDivf_def, Ideal.addf_def, Ideal.hostUnary_exp_def, Ideal.hostNegf_def, Ideal.negf_def, Ideal.ofBits_def]
  exact logistic_spelt _

/-- The candidate. -/
theorem cand38 (p : Fin 512) (j : Fin 8192) : val_main_v38 (F := Ideal) x1 x2 x3 x4 x5 x6 x7 x8 x9 (ix2 p j)
    = Ideal.tanh (val_main_v15 (F := Ideal) x1 x2 x3 x4 x5 x6 x7 x8 x9 (ix2 (rowAt 1536 (by omega) p) j)) := by
  rw [val_main_v38_apply, band37]
  rfl

/-! ## The three results -/

/-- The reference's new cell state at (p, j). -/
theorem ref_c (p : Fin 512) (j : Fin 8192) :
    val_main_v65 (F := Ideal) x0 x1 x2 x3 x4 x5 x6 x7 x8 x9 (ix2 p j)
      = cellC (fun r k => x6 (ix2 r k)) (fun r k => x7 (ix2 r k)) (fun r k => x8 (ix2 r k)) (fun r => x9 (ix1 r))
          (fun k => x2 (ix2 k j)) (fun k => x3 (ix2 k j)) (fun k => x1 (ix2 k j)) (x4 (ix2 (0 : Fin 1) j)) (x5 (ix2 (0 : Fin 1) j))
          (fun p => x0 (ix2 p j)) p := by
  rw [val_main_v65_apply, val_main_v57_apply, val_main_v49_apply, row48, val_main_v47_apply, gate29, cand38,
    val_main_v56_apply, row55, val_main_v54_apply, val_main_v51_apply, val_main_v50_apply, val_main_cst_11_apply,
    val_main_v53_apply, val_main_v52_apply, val_main_cst_12_apply,
    val_main_v64_apply, row63, val_main_v60_apply, val_main_v59_apply, val_main_v58_apply, val_main_cst_13_apply,
    val_main_v62_apply, val_main_v61_apply, gate22, val_main_v47_apply, gate29, cand38]
  simp only [pre15, Ideal.addf_def, Ideal.mulf_def, Ideal.subf_def, Ideal.ofBits_def]
  rfl

/-- The reference's new hidden state at (p, j). -/
theorem ref_h (p : Fin 512) (j : Fin 8192) :
    val_main_v84 (F := Ideal) x0 x1 x2 x3 x4 x5 x6 x7 x8 x9 (ix2 p j)
      = cellH (fun r k => x6 (ix2 r k)) (fun r k => x7 (ix2 r k)) (fun r k => x8 (ix2 r k)) (fun r => x9 (ix1 r))
          (fun k => x2 (ix2 k j)) (fun k => x3 (ix2 k j)) (fun k => x1 (ix2 k j)) (x4 (ix2 (0 : Fin 1) j)) (x5 (ix2 (0 : Fin 1) j))
          (fun p => x0 (ix2 p j)) p := by
  rw [val_main_v84_apply, val_main_v77_apply, val_main_v69_apply, val_main_v68_apply, row67, gate36, val_main_v66_apply,
    val_main_v76_apply, row75, val_main_v74_apply, val_main_v71_apply, val_main_v70_apply, val_main_cst_14_apply,
    val_main_v73_apply, val_main_v72_apply, val_main_cst_15_apply,
    val_main_v83_apply, val_main_v82_apply, row81, val_main_v80_apply, val_main_v79_apply, val_main_v78_apply, val_main_cst_16_apply,
    gate36, val_main_v66_apply, ref_c]
  simp only [pre15, Ideal.addf_def, Ideal.mulf_def, Ideal.subf_def, Ideal.ofBits_def, Ideal.hostUnary_tanh_def]
  rfl

/-- The reference's boundary value at column j. -/
theorem ref_z (j : Fin 8192) :
    val_main_v46 (F := Ideal) x1 x2 x3 x4 x5 x6 x7 x8 x9 (ix2 (0 : Fin 1) j)
      = cellZ (fun r k => x6 (ix2 r k)) (fun r k => x7 (ix2 r k)) (fun r k => x8 (ix2 r k)) (fun r => x9 (ix1 r))
          (fun k => x2 (ix2 k j)) (fun k => x3 (ix2 k j)) (fun k => x1 (ix2 k j)) (x4 (ix2 (0 : Fin 1) j)) (x5 (ix2 (0 : Fin 1) j)) := by
  rw [val_main_v46_apply, val_main_call0_v4_apply, val_main_call0_v3_apply, val_main_cst_10_apply,
    val_main_call0_v2_apply, val_main_call0_v1_apply, val_main_call0_v0_apply, val_main_cst_9_apply,
    val_main_v45_apply, val_main_v44_apply, val_main_cst_8_apply, val_main_v43_apply, val_main_v42_apply, val_main_cst_7_apply,
    val_main_v41_apply, val_main_v40_apply, val_main_cst_6_apply, band39, pre15]
  simp only [Ideal.addf_def, Ideal.mulf_def, Ideal.hostDivf_def, Ideal.maximumf_def, Ideal.minimumf_def, Ideal.ofBits_def]
  unfold cellZ zHat
  rw [mul_comm (Ideal.ofBits .f32 0x3F800000#32)]

/-! ## The three results as whole arrays -/

theorem ref_arrH : val_main_v84 (F := Ideal) x0 x1 x2 x3 x4 x5 x6 x7 x8 x9 = arrH x0 x1 x2 x3 x4 x5 x6 x7 x8 x9 := by
  funext i
  obtain ⟨p, j, rfl⟩ : ∃ (p : Fin 512) (j : Fin 8192), i = ix2 p j := ⟨i 0, i 1, eq_ix2 i⟩
  exact ref_h x0 x1 x2 x3 x4 x5 x6 x7 x8 x9 p j

theorem ref_arrC : val_main_v65 (F := Ideal) x0 x1 x2 x3 x4 x5 x6 x7 x8 x9 = arrC x0 x1 x2 x3 x4 x5 x6 x7 x8 x9 := by
  funext i
  obtain ⟨p, j, rfl⟩ : ∃ (p : Fin 512) (j : Fin 8192), i = ix2 p j := ⟨i 0, i 1, eq_ix2 i⟩
  exact ref_c x0 x1 x2 x3 x4 x5 x6 x7 x8 x9 p j

theorem ref_arrZ : val_main_v46 (F := Ideal) x1 x2 x3 x4 x5 x6 x7 x8 x9 = arrZ x1 x2 x3 x4 x5 x6 x7 x8 x9 := by
  funext i
  obtain ⟨u, j, rfl⟩ : ∃ (u : Fin 1) (j : Fin 8192), i = ix2 u j := ⟨i 0, i 1, eq_ix2 i⟩
  obtain rfl : u = 0 := Subsingleton.elim _ _
  exact ref_z x1 x2 x3 x4 x5 x6 x7 x8 x9 j

end Cert.ReferenceIdeal.Entry

end
-- ==== Proof.lean ====
/-
  A hierarchical-LSTM cell over a batch of 8192 columns with 512 hidden units: the kernel against the plain
  reference, over the extended reals.

  Both programs form the 2049 × 8192 gate pre-activation
      s = (U₁₁ h) ⊙ (1 − z) + (U₂₁ h_top) ⊙ z + (W₀₁ h_bottom) ⊙ z_b + bias
  (the indicator rows z, z_b broadcast down the rows, the bias across the columns), read four bands of 512 rows through
  the logistic function (forget, input, output gates) and tanh (candidate) and the last row through a hard sigmoid, and
  update the cell and hidden states pointwise. The kernel does this one tile of 256 columns at a time, with the weights
  and the bias resident, multiplies each product by its indicator on the right and uses the logistic operation; the
  reference works on whole arrays, multiplies on the left and spells the logistic function out as 1 / (1 + e^(−x)).
  On the extended reals the product is commutative and the spelt-out quotient is the logistic function at every
  argument, infinite ones included, so the two agree entry by entry with no use of the inputs' finiteness.

  `Cell` states the cell's arithmetic for one entry, one column and the whole arrays; `KernelEntry` reads a tile's three
  stored values at an entry; `KernelArrays` carries the tiles to the result arrays (32 tiles covering the batch);
  `RefEntry` reads the reference's three results at an entry. What follows sets the two runs side by side.
-/
import proofs.«180965_j11879879544318_1_alg».proof.Defs
import proofs.«180965_j11879879544318_1_alg».proof.Proof.Gen.Kernel
import proofs.«180965_j11879879544318_1_alg».proof.Proof.Gen.Kernel.Skeleton
import proofs.«180965_j11879879544318_1_alg».proof.Proof.Gen.Kernel.Launch
import proofs.«180965_j11879879544318_1_alg».proof.Proof.Gen.Kernel.Points
import proofs.«180965_j11879879544318_1_alg».proof.Proof.Gen.Kernel.Frame
import proofs.«180965_j11879879544318_1_alg».proof.Proof.Gen.KernelIdeal
import proofs.«180965_j11879879544318_1_alg».proof.Proof.Gen.KernelIdeal.Skeleton
import proofs.«180965_j11879879544318_1_alg».proof.Proof.Gen.KernelIdeal.Launch
import proofs.«180965_j11879879544318_1_alg».proof.Proof.Gen.KernelIdeal.Points
import proofs.«180965_j11879879544318_1_alg».proof.Proof.Gen.KernelIdeal.Frame
import proofs.«180965_j11879879544318_1_alg».proof.Proof.Gen.ReferenceIdeal
import proofs.«180965_j11879879544318_1_alg».proof.Proof.Gen.Pre_finite_inputs
import proofs.«180965_j11879879544318_1_alg».proof.Proof.Gen.KernelIdeal.Value
import proofs.«180965_j11879879544318_1_alg».proof.Proof.Gen.ReferenceIdeal.Run
import proofs.«180965_j11879879544318_1_alg».proof.Proof.Gen.ReferenceIdeal.Read
import proofs.«180965_j11879879544318_1_alg».proof.Proof.KernelArrays
import proofs.«180965_j11879879544318_1_alg».proof.Proof.RefEntry
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the ten arguments both programs end with the cell's three whole-array functions of
    those arguments: the kernel tile by tile (`KernelArrays.run`), the reference by its own operations read at an entry
    (`RefEntry`). -/
theorem algebraic : Cert.algebraic_KernelIdeal_ReferenceIdeal := by
  intro m ρ m' ρ' _ hagree
  refine ⟨fun c => Cert.KernelIdeal.Arrays.AH m c, fun c => Cert.KernelIdeal.Arrays.AC m c,
    fun c => Cert.KernelIdeal.Arrays.AZ m c, Cert.KernelIdeal.Arrays.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9⟩ := hagree c
    rw [Cert.ReferenceIdeal.Read.val_main_v84_eq, Cert.ReferenceIdeal.Entry.ref_arrH, a0, a1, a2, a3, a4, a5, a6, a7, a8, a9]
  · obtain ⟨a0, a1, a2, a3, a4, a5, a6, a7, a8, a9⟩ := hagree c
    rw [Cert.ReferenceIdeal.Read.val_main_v65_eq, Cert.ReferenceIdeal.Entry.ref_arrC, a0, a1, a2, a3, a4, a5, a6, a7, a8, a9]
  · obtain ⟨a0, a1, a2, a3, a4, a5, a6, a7, a8, a9⟩ := hagree c
    rw [Cert.ReferenceIdeal.Read.val_main_v46_eq, Cert.ReferenceIdeal.Entry.ref_arrZ, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
